-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x128x1024 : Shape := ⟨3, ![256, 128, 1024]⟩
abbrev S256 : Shape := ⟨1, ![256]⟩
abbrev S64 : Shape := ⟨1, ![64]⟩
abbrev S_ : Shape := ⟨0, ![]⟩

class Facts : Prop where
  bcast_S_S256x128x1024 : S_.BroadcastsInDim S256x128x1024 (![] : Fin 0 → Fin S256x128x1024.rank)
  reducesTo_S256x128x1024_S_d0_1_2 : S256x128x1024.ReducesTo [0, 1, 2] S_
  h_S_ : 0 < S_.numel
  bcast_S_S256 : S_.BroadcastsInDim S256 (![] : Fin 0 → Fin S256.rank)
  reducesTo_S256_S_d0 : S256.ReducesTo [0] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S256x128x1024 .f32) (main_arg1 : FVec F S256 .f32) (main_arg2 : FVec F S64 .f32) (main_arg3 : FVec F S64 .f32) : IVec S_ 1 :=
  let main_v0 : FVec F S256x128x1024 .f32 := Host.absf main_arg0
  let main_cst : FVec F S_ .f32 := constant S_ .f32 0x7F800000#32
  let main_v1 : FVec F S256x128x1024 .f32 := broadcastInDim S256x128x1024 ![] bcast_S_S256x128x1024 main_cst
  let main_v2 : IVec S256x128x1024 1 := cmpf .olt main_v0 main_v1
  let main_c : IVec S_ 1 := constantI S_ 1 1#1
  let main_v3 : IVec S_ 1 := (fun x v => Host.reduce IntOp.andi x v reducesTo_S256x128x1024_S_d0_1_2 h_S_) main_v2 main_c
  let main_v4 : FVec F S256 .f32 := Host.absf main_arg1
  let main_cst_0 : FVec F S_ .f32 := constant S_ .f32 0x7F800000#32
  let main_v5 : FVec F S256 .f32 := broadcastInDim S256 ![] bcast_S_S256 main_cst_0
  let main_v6 : IVec S256 1 := cmpf .olt main_v4 main_v5
  let main_c_1 : IVec S_ 1 := constantI S_ 1 1#1
  let main_v7 : IVec S_ 1 := (fun x v => Host.reduce IntOp.andi x v reducesTo_S256_S_d0 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S256x128x1024 : Shape := ⟨3, ![256, 128, 1024]⟩
abbrev S256 : Shape := ⟨1, ![256]⟩
abbrev S64 : Shape := ⟨1, ![64]⟩
abbrev S1x64 : Shape := ⟨2, ![1, 64]⟩
abbrev S256x1 : Shape := ⟨2, ![256, 1]⟩
abbrev S256x64 : Shape := ⟨2, ![256, 64]⟩
abbrev S256x64x2 : Shape := ⟨3, ![256, 64, 2]⟩
abbrev S256x128 : Shape := ⟨2, ![256, 128]⟩
abbrev S128 : Shape := ⟨1, ![128]⟩
abbrev S_ : Shape := ⟨0, ![]⟩
abbrev S1x128 : Shape := ⟨2, ![1, 128]⟩
abbrev S256x128x1 : Shape := ⟨3, ![256, 128, 1]⟩
abbrev S8x128x1024 : Shape := ⟨3, ![8, 128, 1024]⟩
abbrev S8x128x1 : Shape := ⟨3, ![8, 128, 1]⟩

abbrev nBuf : Space → Nat
  | .hbm => 62
  | .vmem => 10
  | .smem => 0
  | _ => 0

abbrev bufTy : (tb : Table) → Fin (tcTables nBuf tb) → BufTy
  | .hbm, ⟨0, _⟩ => ⟨S256x128x1024, .f32⟩
  | .hbm, ⟨1, _⟩ => ⟨S256, .f32⟩
  | .hbm, ⟨2, _⟩ => ⟨S64, .f32⟩
  | .hbm, ⟨3, _⟩ => ⟨S64, .f32⟩
  | .hbm, ⟨4, _⟩ => ⟨S1x64, .f32⟩
  | .hbm, ⟨5, _⟩ => ⟨S256x1, .f32⟩
  | .hbm, ⟨6, _⟩ => ⟨S256x64, .f32⟩
  | .hbm, ⟨7, _⟩ => ⟨S256x64, .f32⟩
  | .hbm, ⟨8, _⟩ => ⟨S256x64, .f32⟩
  | .hbm, ⟨9, _⟩ => ⟨S1x64, .f32⟩
  | .hbm, ⟨10, _⟩ => ⟨S256x1, .f32⟩
  | .hbm, ⟨11, _⟩ => ⟨S256x64, .f32⟩
  | .hbm, ⟨12, _⟩ => ⟨S256x64, .f32⟩
  | .hbm, ⟨13, _⟩ => ⟨S256x64, .f32⟩
  | .hbm, ⟨14, _⟩ => ⟨S256x64, .f32⟩
  | .hbm, ⟨15, _⟩ => ⟨S256x64, .f32⟩
  | .hbm, ⟨16, _⟩ => ⟨S256x64, .f32⟩
  | .hbm, ⟨17, _⟩ => ⟨S256x64, .f32⟩
  | .hbm, ⟨18, _⟩ => ⟨S256x64x2, .f32⟩
  | .hbm, ⟨19, _⟩ => ⟨S256x128, .f32⟩
  | .hbm, ⟨20, _⟩ => ⟨S256x64x2, .f32⟩
  | .hbm, ⟨21, _⟩ => ⟨S256x128, .f32⟩
  | .hbm, ⟨22, _⟩ => ⟨S128, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i1⟩
  | .hbm, ⟨27, _⟩ => ⟨S_, .i32⟩
  | .hbm, ⟨28, _⟩ => ⟨S_, .i32⟩
  | .hbm, ⟨29, _⟩ => ⟨S128, .i32⟩
  | .hbm, ⟨30, _⟩ => ⟨S128, .i32⟩
  | .hbm, ⟨31, _⟩ => ⟨S_, .i32⟩
  | .hbm, ⟨32, _⟩ => ⟨S128, .i32⟩
  | .hbm, ⟨33, _⟩ => ⟨S128, .i1⟩
  | .hbm, ⟨34, _⟩ => ⟨S_, .i32⟩
  | .hbm, ⟨35, _⟩ => ⟨S128, .i32⟩
  | .hbm, ⟨36, _⟩ => ⟨S128, .i1⟩
  | .hbm, ⟨37, _⟩ => ⟨S_, .i32⟩
  | .hbm, ⟨38, _⟩ => ⟨S_, .i1⟩
  | .hbm, ⟨39, _⟩ => ⟨S128, .i1⟩
  | .hbm, ⟨40, _⟩ => ⟨S128, .i1⟩
  | .hbm, ⟨41, _⟩ => ⟨S128, .i1⟩
  | .hbm, ⟨42, _⟩ => ⟨S128, .i32⟩
  | .hbm, ⟨43, _⟩ => ⟨S128, .i32⟩
  | .hbm, ⟨44, _⟩ => ⟨S128, .i32⟩
  | .hbm, ⟨45, _⟩ => ⟨S_, .i32⟩
  | .hbm, ⟨46, _⟩ => ⟨S128, .i32⟩
  | .hbm, ⟨47, _⟩ => ⟨S128, .i1⟩
  | .hbm, ⟨48, _⟩ => ⟨S128, .f32⟩
  | .hbm, ⟨49, _⟩ => ⟨S1x128, .f32⟩
  | .hbm, ⟨50, _⟩ => ⟨S_, .f32⟩
  | .hbm, ⟨51, _⟩ => ⟨S1x128, .f32⟩
  | .hbm, ⟨52, _⟩ => ⟨S1x128, .f32⟩
  | .hbm, ⟨53, _⟩ => ⟨S256x128, .f32⟩
  | .hbm, ⟨54, _⟩ => ⟨S256x128, .f32⟩
  | .hbm, ⟨55, _⟩ => ⟨S256x128, .f32⟩
  | .hbm, ⟨56, _⟩ => ⟨S256x128, .f32⟩
  | .hbm, ⟨57, _⟩ => ⟨S256x128, .f32⟩
  | .hbm, ⟨58, _⟩ => ⟨S256x128x1, .f32⟩
  | .hbm, ⟨59, _⟩ => ⟨S256x128x1, .f32⟩
  | .hbm, ⟨60, _⟩ => ⟨S256x128x1, .f32⟩
  | .hbm, ⟨61, _⟩ => ⟨S256x128x1024, .f32⟩
  | .local _ .vmem, ⟨0, _⟩ => ⟨S8x128x1024, .f32⟩
  | .local _ .vmem, ⟨1, _⟩ => ⟨S8x128x1024, .f32⟩
  | .local _ .vmem, ⟨2, _⟩ => ⟨S8x128x1, .f32⟩
  | .local _ .vmem, ⟨3, _⟩ => ⟨S8x128x1, .f32⟩
  | .local _ .vmem, ⟨4, _⟩ => ⟨S8x128x1, .f32⟩
  | .local _ .vmem, ⟨5, _⟩ => ⟨S8x128x1, .f32⟩
  | .local _ .vmem, ⟨6, _⟩ => ⟨S8x128x1, .f32⟩
  | .local _ .vmem, ⟨7, _⟩ => ⟨S8x128x1, .f32⟩
  | .local _ .vmem, ⟨8, _⟩ => ⟨S8x128x1024, .f32⟩
  | .local _ .vmem, ⟨9, _⟩ => ⟨S8x128x1024, .f32⟩
  | _, _ => ⟨S256x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_c : Ref sig .tc := ⟨.hbm, 23, rfl⟩
abbrev main_call0_v0 : Ref sig .tc := ⟨.hbm, 24, rfl⟩
abbrev main_call0_c : Ref sig .tc := ⟨.hbm, 25, rfl⟩
abbrev main_call0_v1 : Ref sig .tc := ⟨.hbm, 26, rfl⟩
abbrev main_call0_c_0 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_c_1 : Ref sig .tc := ⟨.hbm, 31, rfl⟩
abbrev main_call0_v5 : Ref sig .tc := ⟨.hbm, 32, rfl⟩
abbrev main_call0_v6 : Ref sig .tc := ⟨.hbm, 33, rfl⟩
abbrev main_call0_c_2 : Ref sig .tc := ⟨.hbm, 34, rfl⟩
abbrev main_call0_v7 : Ref sig .tc := ⟨.hbm, 35, rfl⟩
abbrev main_call0_v8 : Ref sig .tc := ⟨.hbm, 36, rfl⟩
abbrev main_call0_c_3 : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_v12 : Ref sig .tc := ⟨.hbm, 41, rfl⟩
abbrev main_call0_v13 : Ref sig .tc := ⟨.hbm, 42, rfl⟩
abbrev main_call0_v14 : Ref sig .tc := ⟨.hbm, 43, rfl⟩
abbrev main_v19 : Ref sig .tc := ⟨.hbm, 44, rfl⟩
abbrev main_c_0 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_cst : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S64_S1x64_1 : S64.BroadcastsInDim S1x64 (![1] : Fin 1 → Fin S1x64.rank)
  bcast_S256_S256x1_0 : S256.BroadcastsInDim S256x1 (![0] : Fin 1 → Fin S256x1.rank)
  bcast_S1x64_S256x64_0_1 : S1x64.BroadcastsInDim S256x64 (![0, 1] : Fin 2 → Fin S256x64.rank)
  bcast_S256x1_S256x64_0_1 : S256x1.BroadcastsInDim S256x64 (![0, 1] : Fin 2 → Fin S256x64.rank)
  bcast_S256x64_S256x64x2_0_1 : S256x64.BroadcastsInDim S256x64x2 (![0, 1] : Fin 2 → Fin S256x64x2.rank)
  shapeCasts_S256x64x2_S256x128 : S256x64x2.ShapeCasts S256x128
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S256x128_0_1 : S1x128.BroadcastsInDim S256x128 (![0, 1] : Fin 2 → Fin S256x128.rank)
  bcast_S256x128_S256x128x1_0_1 : S256x128.BroadcastsInDim S256x128x1 (![0, 1] : Fin 2 → Fin S256x128x1.rank)
  inb_S8x128x1024_S8x128x1024_0_0_0 : ∀ a, (![0, 0, 0] : Fin 3 → Nat) a + S8x128x1024.size a ≤ S8x128x1024.size a
  h_S8x128x1024 : 0 < S8x128x1024.numel
  inb_S8x128x1_S8x128x1_0_0_0 : ∀ a, (![0, 0, 0] : Fin 3 → Nat) a + S8x128x1.size a ≤ S8x128x1.size a
  h_S8x128x1 : 0 < S8x128x1.numel
  shapeCasts_S8x128x1_S8x128x1 : S8x128x1.ShapeCasts S8x128x1
  rotates_S8x128x1024_d1 : S8x128x1024.Rotates 1 none
  broadcasts_S8x128x1_S8x128x1024 : S8x128x1.Broadcasts S8x128x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128x1024.size a ≤ S256x128x1024.size a
  hwx0_0 : ∀ i : grid0.Coords, EltTy.bits .f32 = 32 ∨ (Rect.block (s := S256x128x1024) S8x128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128x1.size a ≤ S256x128x1.size a
  hwx0_1 : ∀ i : grid0.Coords, EltTy.bits .f32 = 32 ∨ (Rect.block (s := S256x128x1) S8x128x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128x1.size a ≤ S256x128x1.size a
  hwx0_2 : ∀ i : grid0.Coords, EltTy.bits .f32 = 32 ∨ (Rect.block (s := S256x128x1) S8x128x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x128x1.size a ≤ S256x128x1.size a
  hwx0_3 : ∀ i : grid0.Coords, EltTy.bits .f32 = 32 ∨ (Rect.block (s := S256x128x1) S8x128x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x128x1024.size a ≤ S256x128x1024.size a
  hwx0_4 : ∀ i : grid0.Coords, EltTy.bits .f32 = 32 ∨ (Rect.block (s := S256x128x1024) S8x128x1024.size (cc0_transform_4 i) (hinb0_4 i)).WholeWords (EltTy.packing .f32)

variable [Facts₀]

abbrev win0_0 : Pipeline.Window sig grid0 :=
  Pipeline.Window.ofSpec (Memref.whole main_arg0) S8x128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31) S8x128x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v32) S8x128x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v33) S8x128x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v34) S8x128x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S256x128x1024 : Shape := ⟨3, ![256, 128, 1024]⟩
abbrev S256 : Shape := ⟨1, ![256]⟩
abbrev S64 : Shape := ⟨1, ![64]⟩
abbrev S1x64 : Shape := ⟨2, ![1, 64]⟩
abbrev S256x1 : Shape := ⟨2, ![256, 1]⟩
abbrev S256x64 : Shape := ⟨2, ![256, 64]⟩
abbrev S256x64x2x1024 : Shape := ⟨4, ![256, 64, 2, 1024]⟩
abbrev S256x64x1x1024 : Shape := ⟨4, ![256, 64, 1, 1024]⟩
abbrev S256x64x1024 : Shape := ⟨3, ![256, 64, 1024]⟩
abbrev S256x64x1 : Shape := ⟨3, ![256, 64, 1]⟩

abbrev nBuf : Space → Nat
  | .hbm => 41
  | .vmem => 0
  | .smem => 0
  | _ => 0

abbrev bufTy : (tb : Table) → Fin (tcTables nBuf tb) → BufTy
  | .hbm, ⟨0, _⟩ => ⟨S256x128x1024, .f32⟩
  | .hbm, ⟨1, _⟩ => ⟨S256, .f32⟩
  | .hbm, ⟨2, _⟩ => ⟨S64, .f32⟩
  | .hbm, ⟨3, _⟩ => ⟨S64, .f32⟩
  | .hbm, ⟨4, _⟩ => ⟨S1x64, .f32⟩
  | .hbm, ⟨5, _⟩ => ⟨S256x1, .f32⟩
  | .hbm, ⟨6, _⟩ => ⟨S256x64, .f32⟩
  | .hbm, ⟨7, _⟩ => ⟨S256x64, .f32⟩
  | .hbm, ⟨8, _⟩ => ⟨S256x64, .f32⟩
  | .hbm, ⟨9, _⟩ => ⟨S1x64, .f32⟩
  | .hbm, ⟨10, _⟩ => ⟨S256x1, .f32⟩
  | .hbm, ⟨11, _⟩ => ⟨S256x64, .f32⟩
  | .hbm, ⟨12, _⟩ => ⟨S256x64, .f32⟩
  | .hbm, ⟨13, _⟩ => ⟨S256x64, .f32⟩
  | .hbm, ⟨14, _⟩ => ⟨S256x64, .f32⟩
  | .hbm, ⟨15, _⟩ => ⟨S256x64, .f32⟩
  | .hbm, ⟨16, _⟩ => ⟨S256x64, .f32⟩
  | .hbm, ⟨17, _⟩ => ⟨S256x64, .f32⟩
  | .hbm, ⟨18, _⟩ => ⟨S256x64x2x1024, .f32⟩
  | .hbm, ⟨19, _⟩ => ⟨S256x64x1x1024, .f32⟩
  | .hbm, ⟨20, _⟩ => ⟨S256x64x1024, .f32⟩
  | .hbm, ⟨21, _⟩ => ⟨S256x64x1x1024, .f32⟩
  | .hbm, ⟨22, _⟩ => ⟨S256x64x1024, .f32⟩
  | .hbm, ⟨23, _⟩ => ⟨S256x64x1, .f32⟩
  | .hbm, ⟨24, _⟩ => ⟨S256x64x1024, .f32⟩
  | .hbm, ⟨25, _⟩ => ⟨S256x64x1024, .f32⟩
  | .hbm, ⟨26, _⟩ => ⟨S256x64x1, .f32⟩
  | .hbm, ⟨27, _⟩ => ⟨S256x64x1024, .f32⟩
  | .hbm, ⟨28, _⟩ => ⟨S256x64x1024, .f32⟩
  | .hbm, ⟨29, _⟩ => ⟨S256x64x1024, .f32⟩
  | .hbm, ⟨30, _⟩ => ⟨S256x64x1, .f32⟩
  | .hbm, ⟨31, _⟩ => ⟨S256x64x1024, .f32⟩
  | .hbm, ⟨32, _⟩ => ⟨S256x64x1024, .f32⟩
  | .hbm, ⟨33, _⟩ => ⟨S256x64x1, .f32⟩
  | .hbm, ⟨34, _⟩ => ⟨S256x64x1024, .f32⟩
  | .hbm, ⟨35, _⟩ => ⟨S256x64x1024, .f32⟩
  | .hbm, ⟨36, _⟩ => ⟨S256x64x1024, .f32⟩
  | .hbm, ⟨37, _⟩ => ⟨S256x64x1x1024, .f32⟩
  | .hbm, ⟨38, _⟩ => ⟨S256x64x1x1024, .f32⟩
  | .hbm, ⟨39, _⟩ => ⟨S256x64x2x1024, .f32⟩
  | .hbm, ⟨40, _⟩ => ⟨S256x128x1024, .f32⟩
  | _, _ => ⟨S256x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S256_S256x1_0 : S256.BroadcastsInDim S256x1 (![0] : Fin 1 → Fin S256x1.rank)
  bcast_S1x64_S256x64_0_1 : S1x64.BroadcastsInDim S256x64 (![0, 1] : Fin 2 → Fin S256x64.rank)
  bcast_S256x1_S256x64_0_1 : S256x1.BroadcastsInDim S256x64 (![0, 1] : Fin 2 → Fin S256x64.rank)
  shapeCasts_S256x128x1024_S256x64x2x1024 : S256x128x1024.ShapeCasts S256x64x2x1024
  slices_S256x64x2x1024_S256x64x1x1024_0_0_0_0 : S256x64x2x1024.Slices ![0, 0, 0, 0] S256x64x1x1024
  shapeCasts_S256x64x1x1024_S256x64x1024 : S256x64x1x1024.ShapeCasts S256x64x1024
  slices_S256x64x2x1024_S256x64x1x1024_0_0_1_0 : S256x64x2x1024.Slices ![0, 0, 1, 0] S256x64x1x1024
  bcast_S256x64_S256x64x1_0_1 : S256x64.BroadcastsInDim S256x64x1 (![0, 1] : Fin 2 → Fin S256x64x1.rank)
  bcast_S256x64x1_S256x64x1024_0_1_2 : S256x64x1.BroadcastsInDim S256x64x1024 (![0, 1, 2] : Fin 3 → Fin S256x64x1024.rank)
  bcast_S256x64x1024_S256x64x1x1024_0_1_3 : S256x64x1024.BroadcastsInDim S256x64x1x1024 (![0, 1, 3] : Fin 3 → Fin S256x64x1x1024.rank)
  concatenates_S256x64x1x1024_S256x64x1x1024_S256x64x2x1024_d2 : Shape.Concatenates [S256x64x1x1024, S256x64x1x1024] S256x64x2x1024 2
  shapeCasts_S256x64x2x1024_S256x128x1024 : S256x64x2x1024.ShapeCasts S256x128x1024

variable [Facts₀]

class Facts : Prop extends Facts₀ where

variable [Facts]
-- ==== Proof.Spec.lean ====
/-
  The mathematics of the block rotation, with no program in sight.

  An array `x` of shape [256, 128, 1024] carries, along its middle axis, 64 pairs of channels (2f, 2f+1). For every
  batch entry `b` and every pair `f` there are two coefficients `cT (b, f)` and `sT (b, f)`, and the rotated array is

      out (b, 2f,   t) = cT (b, f) · x (b, 2f, t) − sT (b, f) · x (b, 2f+1, t)
      out (b, 2f+1, t) = sT (b, f) · x (b, 2f, t) + cT (b, f) · x (b, 2f+1, t)                       (`rotated`)

  The same array can be produced by ONE multiply-add over three copies of `x` — `x` itself, `x` moved up by one
  channel and `x` moved down by one channel, both cyclically — with three coefficient columns of shape [256, 128, 1]:

      out (b, q, t) = C (b, q) · x (b, q, t) + Sb (b, q) · x (b, q+1 mod 128, t) + Sf (b, q) · x (b, q−1 mod 128, t)   (`streamed`)

  when `C (b, q) = cT (b, q/2)`, `Sb (b, q) = (−sT (b, q/2)) · e (q)` and `Sf (b, q) = sT (b, q/2) · (1 − e (q))`, where
  `e (q)` is 1 on the even channels and 0 on the odd ones. On the extended reals this needs no finiteness: the products
  with the zero coefficient vanish whatever the other factor is (`0 · a = 0` also for an infinite `a`), `(−s) · a =
  −(s · a)`, `a − b = a + (−b)`, and addition commutes. The cyclic wrap is never seen: channel 0 is even, so its
  `q − 1` term has coefficient 0, and channel 127 is odd, so its `q + 1` term has coefficient 0.
-/
import Idealize.ShloMosaic.PureOps.Ideal
import Idealize.ShloMosaic.Lib.ValueIdx

noncomputable section

namespace Cert.BlockRotation

open Idealize.ShloMosaic Idealize.ShloMosaic.ValueIdx

/-- The data array's shape, a coefficient table's and a coefficient column's. -/
abbrev SX : Shape := ⟨3, ![256, 128, 1024]⟩
abbrev ST : Shape := ⟨2, ![256, 64]⟩
abbrev SC : Shape := ⟨3, ![256, 128, 1]⟩

/-- The pair a channel belongs to. -/
def half (q : Fin 128) : Fin 64 := ⟨q.val / 2, by have := q.isLt; omega⟩
/-- The next channel and the previous one, around the end. -/
def nxt (q : Fin 128) : Fin 128 := ⟨(q.val + 1) % 128, Nat.mod_lt _ (by decide)⟩
def prv (q : Fin 128) : Fin 128 := ⟨(q.val + 127) % 128, Nat.mod_lt _ (by decide)⟩

/-- The array rotated pair by pair, at the coordinates `(b, q, t)`. -/
def rotatedAt (x : SX.Idx → EReal) (cT sT : ST.Idx → EReal) (b : Fin 256) (q : Fin 128) (t : Fin 1024) : EReal :=
  if q.val % 2 = 0 then cT (ix2 b (half q)) * x (ix3 b q t) - sT (ix2 b (half q)) * x (ix3 b (nxt q) t)
  else sT (ix2 b (half q)) * x (ix3 b (prv q) t) + cT (ix2 b (half q)) * x (ix3 b q t)

/-- The rotated array. -/
def rotated (x : SX.Idx → EReal) (cT sT : ST.Idx → EReal) : SX.Idx → EReal := fun i => rotatedAt x cT sT (i 0) (i 1) (i 2)

/-- The multiply-add over the array and its two cyclic neighbours along the channel axis, at `(b, q, t)`. -/
def streamedAt (x : SX.Idx → EReal) (C Sb Sf : SC.Idx → EReal) (b : Fin 256) (q : Fin 128) (t : Fin 1024) : EReal :=
  C (ix3 b q 0) * x (ix3 b q t) + Sb (ix3 b q 0) * x (ix3 b (nxt q) t) + Sf (ix3 b q 0) * x (ix3 b (prv q) t)

/-- The array it produces. -/
def streamed (x : SX.Idx → EReal) (C Sb Sf : SC.Idx → EReal) : SX.Idx → EReal := fun i => streamedAt x C Sb Sf (i 0) (i 1) (i 2)

/-- The parity indicator: 1 on the even channels, 0 on the odd ones. -/
def evenInd (q : Fin 128) : EReal := if q.val % 2 = 0 then 1 else 0

theorem one_sub_one : (1 : EReal) - 1 = 0 := by
  show ((1 : ℝ) : EReal) - ((1 : ℝ) : EReal) = 0
  rw [← EReal.coe_sub, sub_self]; rfl

/-- With the parity folded into the coefficient columns the multiply-add is the pairwise rotation, at every `(b, q, t)`. -/
theorem streamedAt_eq_rotatedAt (x : SX.Idx → EReal) (cT sT : ST.Idx → EReal) (C Sb Sf : SC.Idx → EReal)
    (hC : ∀ (b : Fin 256) (q : Fin 128), C (ix3 b q 0) = cT (ix2 b (half q)))
    (hSb : ∀ (b : Fin 256) (q : Fin 128), Sb (ix3 b q 0) = -(sT (ix2 b (half q))) * evenInd q)
    (hSf : ∀ (b : Fin 256) (q : Fin 128), Sf (ix3 b q 0) = sT (ix2 b (half q)) * (1 - evenInd q))
    (b : Fin 256) (q : Fin 128) (t : Fin 1024) :
    streamedAt x C Sb Sf b q t = rotatedAt x cT sT b q t := by
  unfold streamedAt rotatedAt
  rw [hC, hSb, hSf]
  unfold evenInd
  by_cases h : q.val % 2 = 0
  · rw [if_pos h, if_pos h, one_sub_one, mul_zero, zero_mul, add_zero, mul_one, neg_mul, sub_eq_add_neg]
  · rw [if_neg h, if_neg h, sub_zero, mul_zero, zero_mul, add_zero, mul_one, add_comm]

/-- So the two arrays are one. -/
theorem streamed_eq_rotated (x : SX.Idx → EReal) (cT sT : ST.Idx → EReal) (C Sb Sf : SC.Idx → EReal)
    (hC : ∀ (b : Fin 256) (q : Fin 128), C (ix3 b q 0) = cT (ix2 b (half q)))
    (hSb : ∀ (b : Fin 256) (q : Fin 128), Sb (ix3 b q 0) = -(sT (ix2 b (half q))) * evenInd q)
    (hSf : ∀ (b : Fin 256) (q : Fin 128), Sf (ix3 b q 0) = sT (ix2 b (half q)) * (1 - evenInd q)) :
    streamed x C Sb Sf = rotated x cT sT :=
  funext fun i => streamedAt_eq_rotatedAt x cT sT C Sb Sf hC hSb hSf (i 0) (i 1) (i 2)

end Cert.BlockRotation

end
-- ==== Proof.Payload.lean ====
/-
  The kernel body's one stored value, read at an index of the block.

  The body loads a block `x` of shape [8, 128, 1024] and three coefficient blocks `c`, `sb`, `sf` of shape [8, 128, 1],
  and stores `c · x + sb · (x rotated by 127 along the channels) + sf · (x rotated by 1 along the channels)`, the
  coefficients broadcast along the last axis. A rotation by `k` along an axis of extent 128 reads, at channel `q`,
  channel `q − k` modulo 128: by 1 the previous channel, by 127 the next one.
-/
import proofs.«417915_j54099408060867_3_alg».proof.Proof.Gen.KernelIdeal.Skeleton
import proofs.«417915_j54099408060867_3_alg».proof.Proof.Spec
import Idealize.ShloMosaic.Lib.KernelVsHost
import Idealize.ShloMosaic.Lib.Pipeline.Value
import Idealize.ShloMosaic.Lib.ValueIdx

noncomputable section

namespace Cert.KernelIdeal.Payload

open Cert.KernelIdeal Cert.KernelIdeal.Gen Idealize.ShloMosaic Idealize.ShloMosaic.ValueIdx Cert.BlockRotation

/-- A coefficient block broadcast along the last axis reads its channel's one entry. -/
theorem coef_apply (v : Vec Ideal S8x128x1 .f32) (p : Fin 8) (q : Fin 128) (r : Fin 1024) :
    broadcastTo S8x128x1024 (shapeCast S8x128x1 v shapeCasts_S8x128x1_S8x128x1) broadcasts_S8x128x1_S8x128x1024 (ix3 p q r)
      = v (ix3 p q 0) := by
  rw [shapeCast_self]
  exact broadcastTo_apply v broadcasts_S8x128x1_S8x128x1024 (ix3 p q r) (ix3 p q 0) (fun a => match a with
    | ⟨0, _⟩ => by show p.val = if (8 : Nat) = 1 then 0 else p.val; rw [if_neg (by decide)]
    | ⟨1, _⟩ => by show q.val = if (128 : Nat) = 1 then 0 else q.val; rw [if_neg (by decide)]
    | ⟨2, _⟩ => by show 0 = if (1 : Nat) = 1 then 0 else r.val; rw [if_pos rfl])

/-- The block rotated by 1 along the channels reads the previous channel. -/
theorem rotFwd_apply (x : Vec Ideal S8x128x1024 .f32) (p : Fin 8) (q : Fin 128) (r : Fin 1024) :
    dynamicRotate 1 1#32 none x rotates_S8x128x1024_d1 (ix3 p q r) = x (ix3 p (prv q) r) :=
  dynamicRotate_apply 1 1#32 x rotates_S8x128x1024_d1 (ix3 p q r) (ix3 p (prv q) r) (fun b => match b with
    | ⟨0, _⟩ => by show p.val = if ((⟨0, by decide⟩ : Fin 3) = 1) then _ else p.val; rw [if_neg (by decide)]
    | ⟨1, _⟩ => by
        show (q.val + 127) % 128 = if ((⟨1, by decide⟩ : Fin 3) = 1) then (q.val + 128 - 1 % 128) % 128 else q.val
        rw [if_pos (by decide)]
        omega
    | ⟨2, _⟩ => by show r.val = if ((⟨2, by decide⟩ : Fin 3) = 1) then _ else r.val; rw [if_neg (by decide)])

/-- The block rotated by 127 along the channels reads the next channel. -/
theorem rotBwd_apply (x : Vec Ideal S8x128x1024 .f32) (p : Fin 8) (q : Fin 128) (r : Fin 1024) :
    dynamicRotate 1 127#32 none x rotates_S8x128x1024_d1 (ix3 p q r) = x (ix3 p (nxt q) r) :=
  dynamicRotate_apply 1 127#32 x rotates_S8x128x1024_d1 (ix3 p q r) (ix3 p (nxt q) r) (fun b => match b with
    | ⟨0, _⟩ => by show p.val = if ((⟨0, by decide⟩ : Fin 3) = 1) then _ else p.val; rw [if_neg (by decide)]
    | ⟨1, _⟩ => by
        show (q.val + 1) % 128 = if ((⟨1, by decide⟩ : Fin 3) = 1) then (q.val + 128 - 127 % 128) % 128 else q.val
        rw [if_pos (by decide)]
        omega
    | ⟨2, _⟩ => by show r.val = if ((⟨2, by decide⟩ : Fin 3) = 1) then _ else r.val; rw [if_neg (by decide)])

/-- The stored value at `(p, q, r)`: the channel's own entry and its two neighbours', each with its coefficient. -/
theorem pay_apply (x : Vec Ideal S8x128x1024 .f32) (c sb sf : Vec Ideal S8x128x1 .f32) (p : Fin 8) (q : Fin 128) (r : Fin 1024) :
    k0_pay1 x c sb sf (ix3 p q r)
      = c (ix3 p q 0) * x (ix3 p q r) + sb (ix3 p q 0) * x (ix3 p (nxt q) r) + sf (ix3 p q 0) * x (ix3 p (prv q) r) := by
  unfold k0_pay1
  show broadcastTo S8x128x1024 (shapeCast S8x128x1 c shapeCasts_S8x128x1_S8x128x1) broadcasts_S8x128x1_S8x128x1024 (ix3 p q r) * x (ix3 p q r)
      + broadcastTo S8x128x1024 (shapeCast S8x128x1 sb shapeCasts_S8x128x1_S8x128x1) broadcasts_S8x128x1_S8x128x1024 (ix3 p q r)
        * dynamicRotate 1 127#32 none x rotates_S8x128x1024_d1 (ix3 p q r)
      + broadcastTo S8x128x1024 (shapeCast S8x128x1 sf shapeCasts_S8x128x1_S8x128x1) broadcasts_S8x128x1_S8x128x1024 (ix3 p q r)
        * dynamicRotate 1 1#32 none x rotates_S8x128x1024_d1 (ix3 p q r) = _
  rw [coef_apply, coef_apply, coef_apply, rotBwd_apply, rotFwd_apply]

end Cert.KernelIdeal.Payload

end
-- ==== Proof.HostTables.lean ====
/-
  The three coefficient columns the kernel region is launched with, as functions of the arguments, and what each
  holds at a channel.

  Before the region, the program computes from `delta_t` (`x1`), `amplitudes` (`x2`) and `frequencies` (`x3`) the two
  [256, 64] tables `cosT = a · cos ω` and `sinT = a · sin ω` (`a = amplitude ^ delta_t`, `ω = frequency · delta_t`),
  repeats each entry twice along the channel axis (`repeated`: entry `q` of the repeated row is entry `q / 2` of the
  table), and builds the parity row `e` from `iota`, jnp's sign-corrected remainder by 2 and a comparison with 0
  (`evenWord`; on the 128 channels it is decided: 1 exactly on the even ones). The columns are
  `cosT` repeated, `(−sinT repeated) · e` and `sinT repeated · (1 − e)`, each with a trailing unit axis.
-/
import proofs.«417915_j54099408060867_3_alg».proof.Proof.Gen.KernelIdeal.Frame
import proofs.«417915_j54099408060867_3_alg».proof.Proof.Spec
import Idealize.ShloMosaic.Lib.StableHlo.Run
import Idealize.ShloMosaic.Lib.Pipeline.Value
import Idealize.ShloMosaic.Lib.ValueIdx
import Idealize.ShloMosaic.Lib.IdealHost

noncomputable section

namespace Cert.KernelIdeal.HostTables

open Cert.KernelIdeal Cert.KernelIdeal.Gen Idealize.ShloMosaic Idealize.ShloMosaic.TcCoe Idealize.SL.Sem
open Idealize.ShloMosaic.StableHlo Idealize.ShloMosaic.ValueIdx Cert.BlockRotation

/-! ## The tables -/

section Tables
variable (x1 : FVec Ideal S256 .f32) (x2 x3 : FVec Ideal S64 .f32)

/-- `amplitude ^ delta_t`, per batch entry and frequency. -/
def ampT : FVec Ideal S256x64 .f32 :=
  Host.powf (broadcastInDim S256x64 ![0, 1] bcast_S1x64_S256x64_0_1 (broadcastInDim S1x64 ![1] bcast_S64_S1x64_1 x2))
    (broadcastInDim S256x64 ![0, 1] bcast_S256x1_S256x64_0_1 (broadcastInDim S256x1 ![0] bcast_S256_S256x1_0 x1))

/-- `frequency · delta_t`. -/
def angT : FVec Ideal S256x64 .f32 :=
  mulf (broadcastInDim S256x64 ![0, 1] bcast_S1x64_S256x64_0_1 (broadcastInDim S1x64 ![1] bcast_S64_S1x64_1 x3))
    (broadcastInDim S256x64 ![0, 1] bcast_S256x1_S256x64_0_1 (broadcastInDim S256x1 ![0] bcast_S256_S256x1_0 x1))

/-- The two rotation coefficients. -/
def cosT : FVec Ideal S256x64 .f32 := mulf (ampT x1 x2) (Host.cos (angT x1 x3))
def sinT : FVec Ideal S256x64 .f32 := mulf (ampT x1 x2) (Host.sin (angT x1 x3))

end Tables

/-- Each entry of a [256, 64] table twice along the second axis: a broadcast to [256, 64, 2] flattened to [256, 128]. -/
def repeated (y : FVec Ideal S256x64 .f32) : FVec Ideal S256x128 .f32 := fun i =>
  shapeCast S256x128 (broadcastInDim S256x64x2 ![0, 1] bcast_S256x64_S256x64x2_0_1 y) shapeCasts_S256x64x2_S256x128 i

/-- A [256, 128] table with a trailing unit axis. -/
def column (y : FVec Ideal S256x128 .f32) : FVec Ideal S256x128x1 .f32 :=
  broadcastInDim S256x128x1 ![0, 1] bcast_S256x128_S256x128x1_0_1 y

/-! ## The parity row -/

/-- The divisor jnp's remainder uses: 2, or 1 were it 0. -/
def divisor : IVec S_ 32 :=
  select (cmpi .eq (id (constantI S_ 32 2#32)) (constantI S_ 32 0#32)) (constantI S_ 32 1#32) (id (constantI S_ 32 2#32))

/-- The truncated remainder of the channel number. -/
def truncRem : IVec S128 32 := Host.remsi (iotaInDim S128 32 0) (broadcastInDim S128 ![] bcast_S_S128 divisor)

def zeros128 : IVec S128 32 := broadcastInDim S128 ![] bcast_S_S128 (constantI S_ 32 0#32)

/-- jnp's remainder: the truncated one moved by the divisor where it is non-zero and its sign is not the divisor's. -/
def floorRem : IVec S128 32 :=
  select (andi (cmpi .ne (cmpi .slt truncRem zeros128) (broadcastInDim S128 ![] bcast_S_S128 (cmpi .slt divisor (constantI S_ 32 0#32))))
      (cmpi .ne truncRem zeros128))
    (addi truncRem (broadcastInDim S128 ![] bcast_S_S128 divisor)) truncRem

/-- "The channel number is even", as a bit per channel. -/
def evenWord : IVec S128 1 := cmpi .eq floorRem zeros128

/-- The bit is set exactly on the even channels (decided over the 128 of them). -/
theorem evenWord_apply : ∀ q : Fin 128, evenWord (ix1 q) = if q.val % 2 = 0 then 1#1 else 0#1 := by
  decide +kernel

/-- The parity as a float row [1, 128], and its complement. -/
def evenRow : FVec Ideal S1x128 .f32 := broadcastInDim S1x128 ![1] bcast_S128_S1x128_1 (uitofp (F := Ideal) .f32 evenWord)
def oddRow : FVec Ideal S1x128 .f32 :=
  subf (broadcastInDim S1x128 ![] bcast_S_S1x128 (constant (F := Ideal) S_ .f32 0x3F800000#32)) evenRow

/-! ## The three columns -/

section Columns
variable (x1 : FVec Ideal S256 .f32) (x2 x3 : FVec Ideal S64 .f32)

def colC : FVec Ideal S256x128x1 .f32 := column (repeated (cosT x1 x2 x3))
def colSb : FVec Ideal S256x128x1 .f32 :=
  column (mulf (Host.negf (repeated (sinT x1 x2 x3))) (broadcastInDim S256x128 ![0, 1] bcast_S1x128_S256x128_0_1 evenRow))
def colSf : FVec Ideal S256x128x1 .f32 :=
  column (mulf (repeated (sinT x1 x2 x3)) (broadcastInDim S256x128 ![0, 1] bcast_S1x128_S256x128_0_1 oddRow))

end Columns

/-! ## Reading them at a channel -/

theorem repeated_apply (y : FVec Ideal S256x64 .f32) (b : Fin 256) (q : Fin 128) :
    repeated y (ix2 b q) = y (ix2 b (half q)) := by
  unfold repeated
  rw [shapeCast_apply _ shapeCasts_S256x64x2_S256x128 (ix2 b q)
    (ix3 b (half q) (⟨q.val % 2, Nat.mod_lt _ (by decide)⟩ : Fin 2)) (by
      rw [Shape.rowMajor_val_three, Shape.rowMajor_val_two]
      show (b.val * 64 + q.val / 2) * 2 + q.val % 2 = b.val * 128 + q.val
      omega)]
  exact broadcastInDim_apply _ bcast_S256x64_S256x64x2_0_1 y _ (ix2 b (half q)) (fun a => match a with
    | ⟨0, _⟩ => by show b.val = if (256 : Nat) = 1 then 0 else b.val; rw [if_neg (by decide)]
    | ⟨1, _⟩ => by show q.val / 2 = if (64 : Nat) = 1 then 0 else q.val / 2; rw [if_neg (by decide)])

theorem column_apply (y : FVec Ideal S256x128 .f32) (b : Fin 256) (q : Fin 128) :
    column y (ix3 b q 0) = y (ix2 b q) := by
  unfold column
  exact broadcastInDim_apply _ bcast_S256x128_S256x128x1_0_1 y _ (ix2 b q) (fun a => match a with
    | ⟨0, _⟩ => by show b.val = if (256 : Nat) = 1 then 0 else b.val; rw [if_neg (by decide)]
    | ⟨1, _⟩ => by show q.val = if (128 : Nat) = 1 then 0 else q.val; rw [if_neg (by decide)])

/-- The parity row holds the indicator of the even channels. -/
theorem evenRow_apply (q : Fin 128) : evenRow (ix2 (0 : Fin 1) q) = evenInd q := by
  unfold evenRow
  rw [broadcastInDim_apply _ bcast_S128_S1x128_1 _ (ix2 (0 : Fin 1) q) (ix1 q) (fun a => match a with
    | ⟨0, _⟩ => by show q.val = if (128 : Nat) = 1 then 0 else q.val; rw [if_neg (by decide)])]
  show FloatOps.uitofp (F := Ideal) .f32 (evenWord (ix1 q)) = evenInd q
  rw [evenWord_apply q]
  unfold evenInd
  by_cases h : q.val % 2 = 0
  · rw [if_pos h, if_pos h]; show (((1#1 : BitVec 1).toNat : ℝ) : EReal) = 1; norm_num
  · rw [if_neg h, if_neg h]; show (((0#1 : BitVec 1).toNat : ℝ) : EReal) = 0; norm_num

theorem oddRow_apply (q : Fin 128) : oddRow (ix2 (0 : Fin 1) q) = 1 - evenInd q := by
  unfold oddRow
  rw [subf_apply, evenRow_apply]
  congr 1
  rw [broadcastInDim_apply _ bcast_S_S1x128 _ (ix2 (0 : Fin 1) q) ix0 (fun a => a.elim0), constant_apply]
  exact Ideal.ofBits_one_f32

theorem rowBcast_apply (y : FVec Ideal S1x128 .f32) (b : Fin 256) (q : Fin 128) :
    broadcastInDim S256x128 ![0, 1] bcast_S1x128_S256x128_0_1 y (ix2 b q) = y (ix2 (0 : Fin 1) q) :=
  broadcastInDim_apply _ bcast_S1x128_S256x128_0_1 y _ (ix2 (0 : Fin 1) q) (fun a => match a with
    | ⟨0, _⟩ => by show 0 = if (1 : Nat) = 1 then 0 else b.val; rw [if_pos rfl]
    | ⟨1, _⟩ => by show q.val = if (128 : Nat) = 1 then 0 else q.val; rw [if_neg (by decide)])

section ColumnsRead
variable (x1 : FVec Ideal S256 .f32) (x2 x3 : FVec Ideal S64 .f32)

theorem colC_apply (b : Fin 256) (q : Fin 128) : colC x1 x2 x3 (ix3 b q 0) = cosT x1 x2 x3 (ix2 b (half q)) := by
  unfold colC
  rw [column_apply, repeated_apply]

theorem colSb_apply (b : Fin 256) (q : Fin 128) :
    colSb x1 x2 x3 (ix3 b q 0) = -(sinT x1 x2 x3 (ix2 b (half q))) * evenInd q := by
  unfold colSb
  rw [column_apply, mulf_apply, rowBcast_apply, evenRow_apply]
  show -(repeated (sinT x1 x2 x3) (ix2 b q)) * evenInd q = _
  rw [repeated_apply]

theorem colSf_apply (b : Fin 256) (q : Fin 128) :
    colSf x1 x2 x3 (ix3 b q 0) = sinT x1 x2 x3 (ix2 b (half q)) * (1 - evenInd q) := by
  unfold colSf
  rw [column_apply, mulf_apply, rowBcast_apply, oddRow_apply, repeated_apply]

end ColumnsRead

/-! ## They are what the region finds in its coefficient windows' arrays -/

variable (m : (ℓ : Loc nD τ sig) → Buf (Elt Ideal) ℓ)

set_option maxHeartbeats 4000000 in
theorem V_colC (c : Dev nD) : (V m c main_v31 : S256x128x1.Idx → EReal)
    = colC (m ((c : Thread nD τ).loc main_arg1)) (m ((c : Thread nD τ).loc main_arg2)) (m ((c : Thread nD τ).loc main_arg3)) := by
  dsimp only [Gen.V]
  simp only [Gen.hostOps0, Gen.hostOps0_1, Gen.hostOps0_2, List.flatten_cons, List.flatten_nil, List.append_nil, List.cons_append, List.nil_append]
  after_results_simp
  rfl

set_option maxHeartbeats 4000000 in
theorem V_colSb (c : Dev nD) : (V m c main_v32 : S256x128x1.Idx → EReal)
    = colSb (m ((c : Thread nD τ).loc main_arg1)) (m ((c : Thread nD τ).loc main_arg2)) (m ((c : Thread nD τ).loc main_arg3)) := by
  dsimp only [Gen.V]
  simp only [Gen.hostOps0, Gen.hostOps0_1, Gen.hostOps0_2, List.flatten_cons, List.flatten_nil, List.append_nil, List.cons_append, List.nil_append]
  after_results_simp
  rfl

set_option maxHeartbeats 4000000 in
theorem V_colSf (c : Dev nD) : (V m c main_v33 : S256x128x1.Idx → EReal)
    = colSf (m ((c : Thread nD τ).loc main_arg1)) (m ((c : Thread nD τ).loc main_arg2)) (m ((c : Thread nD τ).loc main_arg3)) := by
  dsimp only [Gen.V]
  simp only [Gen.hostOps0, Gen.hostOps0_1, Gen.hostOps0_2, List.flatten_cons, List.flatten_nil, List.append_nil, List.cons_append, List.nil_append]
  after_results_simp
  rfl

end Cert.KernelIdeal.HostTables

end
-- ==== Proof.KernelValue.lean ====
/-
  What the kernel's result array holds after the run: the pairwise rotation of the data array by the two coefficient
  tables.

  The region runs over 32 grid points; point `t` stages rows `8t … 8t+7` of the data array and of the three coefficient
  columns (all four windows move with the output's, block index `(t, 0, 0)`), and writes back the same rows of the
  result. So an entry `(p, q, r)` of any block at `t` is entry `(8t + p, q, r)` of its array (`rowOf`), what point
  `t` writes back is the rows `8t … 8t+7` of the multiply-add `streamed` of the four arrays, and the 32 blocks cover the
  result array: row `n` lies in the block of point `n / 8`. The columns the region finds are the host-side tables of
  HostTables.lean, so the multiply-add is the rotation (Spec.lean).
-/
import proofs.«417915_j54099408060867_3_alg».proof.Proof.Gen.KernelIdeal.Value
import proofs.«417915_j54099408060867_3_alg».proof.Proof.Payload
import proofs.«417915_j54099408060867_3_alg».proof.Proof.HostTables
import proofs.«417915_j54099408060867_3_alg».proof.Proof.Spec
import Idealize.ShloMosaic.Lib.Pipeline.Value
import Idealize.ShloMosaic.Lib.ValueIdx

noncomputable section

namespace Cert.KernelIdeal.KValue

open Cert.KernelIdeal Cert.KernelIdeal.Gen Idealize.ShloMosaic Idealize.ShloMosaic.TcCoe Idealize.SL.Sem
open Idealize.ShloMosaic.Pipeline (Dat)
open Idealize.ShloMosaic.ValueIdx Cert.BlockRotation Cert.KernelIdeal.HostTables Cert.KernelIdeal.Payload

variable (m : (ℓ : Loc nD τ sig) → Buf (Elt Ideal) ℓ) (ρ : Dev nD → PrngReg)

theorem hz : (![0, 0, 0] : Fin 3 → Nat) = fun _ => 0 := funext fun a => by fin_cases a <;> rfl

/-- Every window's block index at point `t` is `(t, 0, 0)` (decided over the 32 points). -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0) :=
  (by decide +kernel : ∀ t : Fin grid0.N, _)

/-- The array row that row `p` of the block at point `t` is. -/
def rowOf (t : Fin cfg0.N) (p : Fin 8) : Fin 256 :=
  ⟨t.val * 8 + p.val, by have h : t.val < 32 := t.isLt; have := p.isLt; omega⟩

/-! ## A block's entry is its array's -/

theorem xblk_apply (c : Dev nD) (t : Fin cfg0.N) (p : Fin 8) (q : Fin 128) (r : Fin 1024) :
    iblk m c 0 t (ix3 p q r) = V m c main_arg0 (ix3 (rowOf t p) q r) := by
  obtain ⟨⟨e0, e1, e2⟩, -⟩ := idx_facts t
  show V m c main_arg0 (((cfg0.win 0).blk t).view.emb (ix3 p q r)) = V m c main_arg0 (ix3 (rowOf t p) q r)
  refine congrArg _ (funext fun a => Fin.ext ?_)
  match a with
  | ⟨0, _⟩ => show win0_0.index t (0 : Fin 3) * 8 + 1 * p.val = t.val * 8 + p.val; omega
  | ⟨1, _⟩ => show win0_0.index t (1 : Fin 3) * 128 + 1 * q.val = q.val; omega
  | ⟨2, _⟩ => show win0_0.index t (2 : Fin 3) * 1024 + 1 * r.val = r.val; omega

theorem cblk_apply (c : Dev nD) (t : Fin cfg0.N) (p : Fin 8) (q : Fin 128) :
    iblk m c 1 t (ix3 p q 0) = V m c main_v31 (ix3 (rowOf t p) q 0) := by
  obtain ⟨-, ⟨e0, e1, e2⟩, -⟩ := idx_facts t
  show V m c main_v31 (((cfg0.win 1).blk t).view.emb (ix3 p q 0)) = V m c main_v31 (ix3 (rowOf t p) q 0)
  refine congrArg _ (funext fun a => Fin.ext ?_)
  match a with
  | ⟨0, _⟩ => show win0_1.index t (0 : Fin 3) * 8 + 1 * p.val = t.val * 8 + p.val; omega
  | ⟨1, _⟩ => show win0_1.index t (1 : Fin 3) * 128 + 1 * q.val = q.val; omega
  | ⟨2, _⟩ => show win0_1.index t (2 : Fin 3) * 1 + 1 * 0 = 0; omega

theorem sbblk_apply (c : Dev nD) (t : Fin cfg0.N) (p : Fin 8) (q : Fin 128) :
    iblk m c 2 t (ix3 p q 0) = V m c main_v32 (ix3 (rowOf t p) q 0) := by
  obtain ⟨-, -, ⟨e0, e1, e2⟩, -⟩ := idx_facts t
  show V m c main_v32 (((cfg0.win 2).blk t).view.emb (ix3 p q 0)) = V m c main_v32 (ix3 (rowOf t p) q 0)
  refine congrArg _ (funext fun a => Fin.ext ?_)
  match a with
  | ⟨0, _⟩ => show win0_2.index t (0 : Fin 3) * 8 + 1 * p.val = t.val * 8 + p.val; omega
  | ⟨1, _⟩ => show win0_2.index t (1 : Fin 3) * 128 + 1 * q.val = q.val; omega
  | ⟨2, _⟩ => show win0_2.index t (2 : Fin 3) * 1 + 1 * 0 = 0; omega

theorem sfblk_apply (c : Dev nD) (t : Fin cfg0.N) (p : Fin 8) (q : Fin 128) :
    iblk m c 3 t (ix3 p q 0) = V m c main_v33 (ix3 (rowOf t p) q 0) := by
  obtain ⟨-, -, -, ⟨e0, e1, e2⟩, -⟩ := idx_facts t
  show V m c main_v33 (((cfg0.win 3).blk t).view.emb (ix3 p q 0)) = V m c main_v33 (ix3 (rowOf t p) q 0)
  refine congrArg _ (funext fun a => Fin.ext ?_)
  match a with
  | ⟨0, _⟩ => show win0_3.index t (0 : Fin 3) * 8 + 1 * p.val = t.val * 8 + p.val; omega
  | ⟨1, _⟩ => show win0_3.index t (1 : Fin 3) * 128 + 1 * q.val = q.val; omega
  | ⟨2, _⟩ => show win0_3.index t (2 : Fin 3) * 1 + 1 * 0 = 0; omega

theorem out_emb (t : Fin cfg0.N) (p : Fin 8) (q : Fin 128) (r : Fin 1024) :
    ((cfg0.win 4).blk t).view.emb (ix3 p q r) = ix3 (rowOf t p) q r := by
  obtain ⟨-, -, -, -, e0, e1, e2⟩ := idx_facts t
  refine funext fun a => Fin.ext ?_
  match a with
  | ⟨0, _⟩ => show win0_4.index t (0 : Fin 3) * 8 + 1 * p.val = t.val * 8 + p.val; omega
  | ⟨1, _⟩ => show win0_4.index t (1 : Fin 3) * 128 + 1 * q.val = q.val; omega
  | ⟨2, _⟩ => show win0_4.index t (2 : Fin 3) * 1024 + 1 * r.val = r.val; omega

/-! ## What each point writes back -/

/-- The multiply-add of the four arrays as the region finds them. -/
def result (c : Dev nD) : S256x128x1024.Idx → EReal :=
  streamed (V m c main_arg0) (V m c main_v31) (V m c main_v32) (V m c main_v33)

/-- Point `t` writes back block `t` of `result`. -/
theorem flushed_eq (c : Dev nD) (t : Fin cfg0.N) :
    (dats m 0 c).flushed 4 t = ((cfg0.win 4).blk t).view.read (Elt Ideal) (result m c) := by
  show (cfg0.win 4).cut (grid0.coords t) ((dats m 0 c).after 4 t) = _
  rw [after0_4]
  unfold out0_4
  rw [View.canon_unit_zero hz]
  simp only [View.ld_unit_zero (S := S8x128x1024) hz, View.ld_unit_zero (S := S8x128x1) hz]
  funext j
  obtain ⟨p, q, r, rfl⟩ : ∃ (p : Fin 8) (q : Fin 128) (r : Fin 1024), j = ix3 p q r := ⟨j 0, j 1, j 2, eq_ix3 j⟩
  show k0_pay1 (iblk m c 0 t) (iblk m c 1 t) (iblk m c 2 t) (iblk m c 3 t) (ix3 p q r)
    = result m c (((cfg0.win 4).blk t).view.emb (ix3 p q r))
  refine (pay_apply (iblk m c 0 t) (iblk m c 1 t) (iblk m c 2 t) (iblk m c 3 t) p q r).trans ?_
  rw [out_emb t p q r, xblk_apply m c t p q r, xblk_apply m c t p (nxt q) r, xblk_apply m c t p (prv q) r,
    cblk_apply m c t p q, sbblk_apply m c t p q, sfblk_apply m c t p q]
  rfl

/-! ## The blocks cover the result array -/

theorem mem_blk (t : Fin cfg0.N) (i : S256x128x1024.Idx) :
    i ∈ ((cfg0.win 4).blk t).view.set ↔ ∀ a : Fin 3, win0_4.index t a * S8x128x1024.size a ≤ (i a).val ∧ (i a).val < win0_4.index t a * S8x128x1024.size a + S8x128x1024.size a := by
  show i ∈ ((View.whole main_v34).slice (win0_4.rect t)).set ↔ _
  rw [View.set_slice_whole, Rect.mem_set_unit]
  exact Iff.rfl

theorem cover (i : S256x128x1024.Idx) : ∃ t : Fin cfg0.N, (cfg0.win 4).flush t = true ∧ i ∈ ((cfg0.win 4).blk t).view.set := by
  have h0 : (i 0).val < 256 := (i 0).isLt
  have h1 : (i 1).val < 128 := (i 1).isLt
  have h2 : (i 2).val < 1024 := (i 2).isLt
  let t : Fin cfg0.N := ⟨(i 0).val / 8, by show (i 0).val / 8 < 32; omega⟩
  obtain ⟨-, -, -, -, e0, e1, e2⟩ := idx_facts t
  have ht : t.val = (i 0).val / 8 := rfl
  refine ⟨t, flush0_4 t, ?_⟩
  rw [mem_blk]
  intro a
  match a with
  | ⟨0, _⟩ => show win0_4.index t (0 : Fin 3) * 8 ≤ (i 0).val ∧ (i 0).val < win0_4.index t (0 : Fin 3) * 8 + 8; omega
  | ⟨1, _⟩ => show win0_4.index t (1 : Fin 3) * 128 ≤ (i 1).val ∧ (i 1).val < win0_4.index t (1 : Fin 3) * 128 + 128; omega
  | ⟨2, _⟩ => show win0_4.index t (2 : Fin 3) * 1024 ≤ (i 2).val ∧ (i 2).val < win0_4.index t (2 : Fin 3) * 1024 + 1024; omega

/-- So the result array ends holding `result`. -/
theorem final (c : Dev nD) : (dats m 0 c).arrAt 4 cfg0.N = result m c :=
  (dats m 0 c).arrAt_eq_of_cover 4 (result m c) (fun t _ => flushed_eq m c t) cover

/-! ## The multiply-add is the rotation -/

theorem result_eq (c : Dev nD) : result m c
    = rotated (m ((c : Thread nD τ).loc main_arg0))
        (cosT (m ((c : Thread nD τ).loc main_arg1)) (m ((c : Thread nD τ).loc main_arg2)) (m ((c : Thread nD τ).loc main_arg3)))
        (sinT (m ((c : Thread nD τ).loc main_arg1)) (m ((c : Thread nD τ).loc main_arg2)) (m ((c : Thread nD τ).loc main_arg3))) := by
  unfold result
  rw [V_main_arg0, V_colC, V_colSb, V_colSf]
  exact streamed_eq_rotated _ _ _ _ _ _ (colC_apply _ _ _) (colSb_apply _ _ _) (colSf_apply _ _ _)

/-- The kernel's run: the result array at the rotation of the arguments, the arguments unchanged. -/
theorem run : θ_run defs (onTc (τ := τ) (main (F := Ideal))) ⟨m, fun _ => 0, ρ⟩ fun r => ∀ c : Dev nD,
      r.2.mem ((c : Thread nD τ).loc main_v34)
        = rotated (m ((c : Thread nD τ).loc main_arg0))
            (cosT (m ((c : Thread nD τ).loc main_arg1)) (m ((c : Thread nD τ).loc main_arg2)) (m ((c : Thread nD τ).loc main_arg3)))
            (sinT (m ((c : Thread nD τ).loc main_arg1)) (m ((c : Thread nD τ).loc main_arg2)) (m ((c : Thread nD τ).loc main_arg3)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans ((final m c).trans (result_eq m c)), (h c).2⟩)
    (Cert.KernelIdeal.Value.run_blocks m ρ)

end Cert.KernelIdeal.KValue

end
-- ==== Proof.RefValue.lean ====
/-
  The reference's result is the pairwise rotation of its data argument by its own two coefficient tables.

  The reference splits the channel axis as [64, 2], takes the two slices `x0 = x[:, :, 0]` and `x1 = x[:, :, 1]`, forms
  `c · x0 − s · x1` and `s · x0 + c · x1`, and stacks them back on the pair axis. Read at channel `q` of the flattened
  result: the pair is `q / 2`, the stacked piece is `q % 2`, and within the pair the two sources are channels
  `2 (q / 2)` and `2 (q / 2) + 1` — for an even `q` the channel itself and the next one, for an odd `q` the previous
  one and the channel itself.
-/
import proofs.«417915_j54099408060867_3_alg».proof.Proof.Gen.ReferenceIdeal.Read
import proofs.«417915_j54099408060867_3_alg».proof.Proof.Spec
import Idealize.ShloMosaic.Lib.Pipeline.Value
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx Cert.BlockRotation

variable (x0 : FVec Ideal S256x128x1024 .f32) (x1 : FVec Ideal S256 .f32) (x2 x3 : FVec Ideal S64 .f32)

/-- Where the first slice of pair `f` comes from: channel `2f`. -/
theorem src_first (b : Fin 256) (f : Fin 64) (t : Fin 1024) (q : Fin 128) (hq : q.val = 2 * f.val) :
    idx_main_v14 (idx_main_v15 (idx_main_v16 (ix3 b f t))) = ix3 b q t := by
  have hb := b.isLt; have hf := f.isLt; have ht := t.isLt
  refine funext fun a => Fin.ext ?_
  match a with
  | ⟨0, _⟩ =>
    show (((((b.val * 64 + f.val) * 1024 + t.val) / 65536 * 64 + ((b.val * 64 + f.val) * 1024 + t.val) / 1024 % 64) * 2 + 0) * 1024
      + ((b.val * 64 + f.val) * 1024 + t.val) % 1024) / 131072 = b.val
    omega
  | ⟨1, _⟩ =>
    show (((((b.val * 64 + f.val) * 1024 + t.val) / 65536 * 64 + ((b.val * 64 + f.val) * 1024 + t.val) / 1024 % 64) * 2 + 0) * 1024
      + ((b.val * 64 + f.val) * 1024 + t.val) % 1024) / 1024 % 128 = q.val
    omega
  | ⟨2, _⟩ =>
    show (((((b.val * 64 + f.val) * 1024 + t.val) / 65536 * 64 + ((b.val * 64 + f.val) * 1024 + t.val) / 1024 % 64) * 2 + 0) * 1024
      + ((b.val * 64 + f.val) * 1024 + t.val) % 1024) % 1024 = t.val
    omega

/-- Where the second slice of pair `f` comes from: channel `2f + 1`. -/
theorem src_second (b : Fin 256) (f : Fin 64) (t : Fin 1024) (q : Fin 128) (hq : q.val = 2 * f.val + 1) :
    idx_main_v14 (idx_main_v17 (idx_main_v18 (ix3 b f t))) = ix3 b q t := by
  have hb := b.isLt; have hf := f.isLt; have ht := t.isLt
  refine funext fun a => Fin.ext ?_
  match a with
  | ⟨0, _⟩ =>
    show (((((b.val * 64 + f.val) * 1024 + t.val) / 65536 * 64 + ((b.val * 64 + f.val) * 1024 + t.val) / 1024 % 64) * 2 + (1 + 0)) * 1024
      + ((b.val * 64 + f.val) * 1024 + t.val) % 1024) / 131072 = b.val
    omega
  | ⟨1, _⟩ =>
    show (((((b.val * 64 + f.val) * 1024 + t.val) / 65536 * 64 + ((b.val * 64 + f.val) * 1024 + t.val) / 1024 % 64) * 2 + (1 + 0)) * 1024
      + ((b.val * 64 + f.val) * 1024 + t.val) % 1024) / 1024 % 128 = q.val
    omega
  | ⟨2, _⟩ =>
    show (((((b.val * 64 + f.val) * 1024 + t.val) / 65536 * 64 + ((b.val * 64 + f.val) * 1024 + t.val) / 1024 % 64) * 2 + (1 + 0)) * 1024
      + ((b.val * 64 + f.val) * 1024 + t.val) % 1024) % 1024 = t.val
    omega

/-- A coefficient broadcast along the last axis reads its table at `(b, f)` (the four broadcasts of the program). -/
theorem tab_a (b : Fin 256) (f : Fin 64) (t : Fin 1024) : idx_main_v19 (idx_main_v20 (ix3 b f t)) = ix2 b f :=
  funext fun a => match a with | ⟨0, _⟩ => rfl | ⟨1, _⟩ => rfl
theorem tab_b (b : Fin 256) (f : Fin 64) (t : Fin 1024) : idx_main_v22 (idx_main_v23 (ix3 b f t)) = ix2 b f :=
  funext fun a => match a with | ⟨0, _⟩ => rfl | ⟨1, _⟩ => rfl
theorem tab_c (b : Fin 256) (f : Fin 64) (t : Fin 1024) : idx_main_v26 (idx_main_v27 (ix3 b f t)) = ix2 b f :=
  funext fun a => match a with | ⟨0, _⟩ => rfl | ⟨1, _⟩ => rfl
theorem tab_d (b : Fin 256) (f : Fin 64) (t : Fin 1024) : idx_main_v29 (idx_main_v30 (ix3 b f t)) = ix2 b f :=
  funext fun a => match a with | ⟨0, _⟩ => rfl | ⟨1, _⟩ => rfl

/-- A stacked piece read on its unit pair axis is the piece. -/
theorem unstack_a (b : Fin 256) (f : Fin 64) (t : Fin 1024) : idx_main_v33 (ix4 b f (0 : Fin 1) t) = ix3 b f t :=
  funext fun a => match a with | ⟨0, _⟩ => rfl | ⟨1, _⟩ => rfl | ⟨2, _⟩ => rfl
theorem unstack_b (b : Fin 256) (f : Fin 64) (t : Fin 1024) : idx_main_v34 (ix4 b f (0 : Fin 1) t) = ix3 b f t :=
  funext fun a => match a with | ⟨0, _⟩ => rfl | ⟨1, _⟩ => rfl | ⟨2, _⟩ => rfl

/-- The first stacked piece at `(b, f, t)`: `c · x[2f] − s · x[2f+1]`. -/
theorem piece0_apply (b : Fin 256) (f : Fin 64) (t : Fin 1024) (q q' : Fin 128) (hq : q.val = 2 * f.val) (hq' : q'.val = 2 * f.val + 1) :
    val_main_v25 (F := Ideal) x0 x1 x2 x3 (ix3 b f t)
      = val_main_v11 (F := Ideal) x1 x2 x3 (ix2 b f) * x0 (ix3 b q t) - val_main_v13 (F := Ideal) x1 x2 x3 (ix2 b f) * x0 (ix3 b q' t) := by
  rw [val_main_v25_apply, val_main_v21_apply, val_main_v24_apply, val_main_v20_apply, val_main_v19_apply, val_main_v23_apply,
    val_main_v22_apply, val_main_v16_apply, val_main_v15_apply, val_main_v14_apply, val_main_v18_apply, val_main_v17_apply,
    val_main_v14_apply, src_first b f t q hq, src_second b f t q' hq', tab_a, tab_b]
  rfl

/-- The second stacked piece at `(b, f, t)`: `s · x[2f] + c · x[2f+1]`. -/
theorem piece1_apply (b : Fin 256) (f : Fin 64) (t : Fin 1024) (q q' : Fin 128) (hq : q.val = 2 * f.val) (hq' : q'.val = 2 * f.val + 1) :
    val_main_v32 (F := Ideal) x0 x1 x2 x3 (ix3 b f t)
      = val_main_v13 (F := Ideal) x1 x2 x3 (ix2 b f) * x0 (ix3 b q t) + val_main_v11 (F := Ideal) x1 x2 x3 (ix2 b f) * x0 (ix3 b q' t) := by
  rw [val_main_v32_apply, val_main_v28_apply, val_main_v31_apply, val_main_v27_apply, val_main_v26_apply, val_main_v30_apply,
    val_main_v29_apply, val_main_v16_apply, val_main_v15_apply, val_main_v14_apply, val_main_v18_apply, val_main_v17_apply,
    val_main_v14_apply, src_first b f t q hq, src_second b f t q' hq', tab_c, tab_d]
  rfl

/-- THE REFERENCE'S RESULT is the rotation of `x0` by its tables `val_main_v11` (`a · cos ω`) and `val_main_v13` (`a · sin ω`). -/
theorem result_eq : (val_main_v36 (F := Ideal) x0 x1 x2 x3 : S256x128x1024.Idx → EReal)
    = rotated x0 (val_main_v11 (F := Ideal) x1 x2 x3) (val_main_v13 (F := Ideal) x1 x2 x3) := by
  funext i
  obtain ⟨b, q, t, rfl⟩ : ∃ (b : Fin 256) (q : Fin 128) (t : Fin 1024), i = ix3 b q t := ⟨i 0, i 1, i 2, eq_ix3 i⟩
  show _ = rotatedAt x0 (val_main_v11 (F := Ideal) x1 x2 x3) (val_main_v13 (F := Ideal) x1 x2 x3) b q t
  have hb := b.isLt; have hq := q.isLt; have ht := t.isLt
  rw [val_main_v36_apply]
  unfold val_main_v35 rotatedAt
  by_cases h : q.val % 2 = 0
  · rw [if_pos h]
    rw [concatenate_pair_apply_left (s₁ := S256x64x1x1024) (s₂ := S256x64x1x1024) (2 : Fin 4) (val_main_v33 (F := Ideal) x0 x1 x2 x3) (val_main_v34 (F := Ideal) x0 x1 x2 x3) concatenates_S256x64x1x1024_S256x64x1x1024_S256x64x2x1024_d2
      (idx_main_v36 (ix3 b q t)) rfl (ix4 b (half q) (0 : Fin 1) t) (fun a => match a with
        | ⟨0, _⟩ => by show b.val = ((b.val * 128 + q.val) * 1024 + t.val) / 131072; omega
        | ⟨1, _⟩ => by show q.val / 2 = ((b.val * 128 + q.val) * 1024 + t.val) / 2048 % 64; omega
        | ⟨2, _⟩ => by show 0 = ((b.val * 128 + q.val) * 1024 + t.val) / 1024 % 2; omega
        | ⟨3, _⟩ => by show t.val = ((b.val * 128 + q.val) * 1024 + t.val) % 1024; omega)]
    rw [val_main_v33_apply, unstack_a]
    exact piece0_apply x0 x1 x2 x3 b (half q) t q (nxt q) (by show q.val = 2 * (q.val / 2); omega)
      (by show (q.val + 1) % 128 = 2 * (q.val / 2) + 1; omega)
  · rw [if_neg h]
    rw [concatenate_pair_apply_right (s₁ := S256x64x1x1024) (s₂ := S256x64x1x1024) (2 : Fin 4) (val_main_v33 (F := Ideal) x0 x1 x2 x3) (val_main_v34 (F := Ideal) x0 x1 x2 x3) concatenates_S256x64x1x1024_S256x64x1x1024_S256x64x2x1024_d2
      (idx_main_v36 (ix3 b q t)) rfl rfl (ix4 b (half q) (0 : Fin 1) t) (fun a ha => match a with
        | ⟨0, _⟩ => by show b.val = ((b.val * 128 + q.val) * 1024 + t.val) / 131072; omega
        | ⟨1, _⟩ => by show q.val / 2 = ((b.val * 128 + q.val) * 1024 + t.val) / 2048 % 64; omega
        | ⟨2, _⟩ => absurd rfl ha
        | ⟨3, _⟩ => by show t.val = ((b.val * 128 + q.val) * 1024 + t.val) % 1024; omega)
      (by show 0 + 1 = ((b.val * 128 + q.val) * 1024 + t.val) / 1024 % 2; omega)]
    rw [val_main_v34_apply, unstack_b]
    exact piece1_apply x0 x1 x2 x3 b (half q) t (prv q) q (by show (q.val + 127) % 128 = 2 * (q.val / 2); omega)
      (by show q.val = 2 * (q.val / 2) + 1; omega)

end Cert.ReferenceIdeal.RefValue

end
-- ==== Proof.lean ====
/-
  The kernel against its reference: a per-sample rotation of channel pairs.

  Both programs compute from `delta_t`, `amplitudes` and `frequencies` the same two [256, 64] tables `c = a · cos ω` and
  `s = a · sin ω` (`a = amplitude ^ delta_t`, `ω = frequency · delta_t`; the same operations in the same order, so the
  tables are one term). The reference rotates each channel pair `(x[2f], x[2f+1])` by them: `(c x[2f] − s x[2f+1],
  s x[2f] + c x[2f+1])`. The kernel computes `C · x + Sb · x⁺ + Sf · x⁻` over the array and its two cyclic neighbours
  along the channels, with the parity of the channel folded into the coefficient columns `C = c`, `Sb = −s · e`,
  `Sf = s · (1 − e)` (`e` the indicator of the even channels). On the extended reals the two are equal with no
  finiteness assumption: a product with the zero coefficient is zero whatever the other factor (Spec.lean). So the
  precondition is not opened.

  The kernel's side is read off its run block by block (KernelValue.lean, over Payload.lean for the body's value at an
  index and HostTables.lean for the coefficient columns); the reference's side operation by operation (RefValue.lean).
  The idealization rewrote nothing, so there is nothing to preserve.
-/
import proofs.«417915_j54099408060867_3_alg».proof.Defs
import proofs.«417915_j54099408060867_3_alg».proof.Proof.Gen.Kernel
import proofs.«417915_j54099408060867_3_alg».proof.Proof.Gen.Kernel.Skeleton
import proofs.«417915_j54099408060867_3_alg».proof.Proof.Gen.Kernel.Launch
import proofs.«417915_j54099408060867_3_alg».proof.Proof.Gen.Kernel.Points
import proofs.«417915_j54099408060867_3_alg».proof.Proof.Gen.Kernel.Frame
import proofs.«417915_j54099408060867_3_alg».proof.Proof.Gen.KernelIdeal
import proofs.«417915_j54099408060867_3_alg».proof.Proof.Gen.KernelIdeal.Skeleton
import proofs.«417915_j54099408060867_3_alg».proof.Proof.Gen.KernelIdeal.Launch
import proofs.«417915_j54099408060867_3_alg».proof.Proof.Gen.KernelIdeal.Points
import proofs.«417915_j54099408060867_3_alg».proof.Proof.Gen.KernelIdeal.Frame
import proofs.«417915_j54099408060867_3_alg».proof.Proof.Gen.ReferenceIdeal
import proofs.«417915_j54099408060867_3_alg».proof.Proof.Gen.Pre_finite_inputs
import proofs.«417915_j54099408060867_3_alg».proof.Proof.Gen.KernelIdeal.Value
import proofs.«417915_j54099408060867_3_alg».proof.Proof.Gen.ReferenceIdeal.Run
import proofs.«417915_j54099408060867_3_alg».proof.Proof.Gen.ReferenceIdeal.Read
import proofs.«417915_j54099408060867_3_alg».proof.Proof.KernelValue
import proofs.«417915_j54099408060867_3_alg».proof.Proof.RefValue
import Idealize.ShloMosaic.Adequacy
import Idealize.ShloMosaic.Init

noncomputable section

namespace Cert.Proof

open Idealize.ShloMosaic Idealize.ShloMosaic.TcCoe Idealize.SL.Sem Cert.BlockRotation

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end at the rotation of the data argument by the tables of the other three arguments: the kernel's
    tables and the reference's are the same operations of the same arguments. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v36_eq, Cert.ReferenceIdeal.RefValue.result_eq,
    (hagree c).1, (hagree c).2.1, (hagree c).2.2.1, (hagree c).2.2.2]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
